-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The two-layer graph convolution as whole-array functions, spelt with the host operations of the printed reference.

  A message list holds the 800000 edges followed by one self loop per node: `srcIdx` and `dstIdx` are the two rows of the
  edge list, each followed by 0 … 49999. A negative index is moved up by the number of nodes before it is used as a row
  number (`wrap`). The in-degree `deg` adds a one at every message's destination, `dinv` is its inverse square root where the
  degree is positive and zero elsewhere, and a message's weight `norm` is `dinv` at its source times `dinv` at its destination.
  One layer takes a feature matrix `h` to the matrix whose row `v` is the sum, over the messages that arrive at `v`, of
  the source's row of `h` times the message's weight (`agg128`, `agg64`); before that `h` is a matrix product (`mm1`, `mm2`)
  and after it a bias row is added to every row, the first layer also cut off below at zero (`bias1`, `bias2`).
  `out` is the composition. Nothing here is opened again: the kernel's program and the reference apply the same
  index, weight and aggregation functions, and the certificate only ever compares what goes INTO them.
-/
import proofs.«115861_j11029476016726_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The messages' source nodes: row 0 of the edge list, then every node once. -/
def srcIdx (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The messages' destination nodes: row 1 of the edge list, then every node once. -/
def dstIdx (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counts from the end: 50000 is added to it. -/
def wrap (s : (⟨S850000, .i32⟩ : BufTy).Contents (Elt F)) : (⟨S850000, .i32⟩ : BufTy).Contents (Elt F) :=
  select (cmpi .slt s (broadcastInDim S850000 ![] bcast_S_S850000 (constantI S_ 32 0#32))) (addi s (broadcastInDim S850000 ![] bcast_S_S850000 (constantI S_ 32 50000#32))) s

/-- The in-degree of every node: a one added at each message's destination. -/
def deg (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- The inverse square root of the degree where it is positive, zero elsewhere. -/
def dinv (d : (⟨S850000, .i32⟩ : BufTy).Contents (Elt F)) : (⟨S50000, .f32⟩ : BufTy).Contents (Elt F) :=
  select (cmpf (F := F) .ogt (deg d) (broadcastInDim S50000 ![] bcast_S_S50000 (constant S_ .f32 0x00000000#32))) (Host.rsqrt (deg d)) (broadcastInDim S50000 ![] bcast_S_S50000 (id (constant S_ .f32 0x00000000#32)))

/-- A message's weight from a per-node factor `v`: the factor at its source times the factor at its destination. -/
def normOf (v : (⟨S50000, .f32⟩ : BufTy).Contents (Elt F)) (s d : (⟨S850000, .i32⟩ : BufTy).Contents (Elt F)) : (⟨S850000, .f32⟩ : BufTy).Contents (Elt F) :=
  mulf (Host.gather gather_S50000_S850000x1_S850000_n_0_n_n_0_1_1 v (broadcastInDim S850000x1 ![0] bcast_S850000_S850000x1_0 (wrap s))) (Host.gather gather_S50000_S850000x1_S850000_n_0_n_n_0_1_1 v (broadcastInDim S850000x1 ![0] bcast_S850000_S850000x1_0 (wrap d)))

/-- The messages' weights of an edge list. -/
def norm (e : (⟨S2x800000, .i32⟩ : BufTy).Contents (Elt F)) : (⟨S850000, .f32⟩ : BufTy).Contents (Elt F) :=
  normOf (dinv (dstIdx e)) (srcIdx e) (dstIdx e)

/-- One aggregation over 128 features: each message carries its source's row times its weight to its destination's row. -/
def agg128 (h : (⟨S50000x128, .f32⟩ : BufTy).Contents (Elt F)) (s d : (⟨S850000, .i32⟩ : BufTy).Contents (Elt F)) (n : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (wrap s))) (broadcastInDim S850000x128 ![0, 1] bcast_S850000x1_S850000x128_0_1 (broadcastInDim S850000x1 ![0] bcast_S850000_S850000x1_0 n)))

/-- The same aggregation over 64 features. -/
def agg64 (h : (⟨S50000x64, .f32⟩ : BufTy).Contents (Elt F)) (s d : (⟨S850000, .i32⟩ : BufTy).Contents (Elt F)) (n : (⟨S850000, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 h (broadcastInDim S850000x1 ![0] bcast_S850000_S850000x1_0 (wrap s))) (broadcastInDim S850000x64 ![0, 1] bcast_S850000x1_S850000x64_0_1 (broadcastInDim S850000x1 ![0] bcast_S850000_S850000x1_0 n)))

/-- The first layer's matrix product, [50000,128] by [128,128]. -/
def mm1 (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- The second layer's matrix product, [50000,128] by [128,64]. -/
def mm2 (h : (⟨S50000x128, .f32⟩ : BufTy).Contents (Elt F)) (w : (⟨S128x64, .f32⟩ : BufTy).Contents (Elt F)) : (⟨S50000x64, .f32⟩ : BufTy).Contents (Elt F) :=
  Host.dotGeneral dot_S50000x128_S128x64_S50000x64_1_0_0_1_n_n none h w

/-- The first layer's closing step on a bias given as a [1,128] row: the row added to every row, then the maximum with zero. -/
def bias1Row (a : (⟨S50000x128, .f32⟩ : BufTy).Contents (Elt F)) (r : (⟨S1x128, .f32⟩ : BufTy).Contents (Elt F)) : (⟨S50000x128, .f32⟩ : BufTy).Contents (Elt F) :=
  maximumf (addf a (broadcastInDim S50000x128 ![0, 1] bcast_S1x128_S50000x128_0_1 r)) (broadcastInDim S50000x128 ![] bcast_S_S50000x128 (constant S_ .f32 0x00000000#32))

/-- The second layer's closing step on a bias given as a [1,64] row: the row added to every row. -/
def bias2Row (a : (⟨S50000x64, .f32⟩ : BufTy).Contents (Elt F)) (r : (⟨S1x64, .f32⟩ : BufTy).Contents (Elt F)) : (⟨S50000x64, .f32⟩ : BufTy).Contents (Elt F) :=
  addf a (broadcastInDim S50000x64 ![0, 1] bcast_S1x64_S50000x64_0_1 r)

/-- The first layer's closing step on the bias vector: laid out as a row, then `bias1Row`. -/
def bias1 (a : (⟨S50000x128, .f32⟩ : BufTy).Contents (Elt F)) (b : (⟨S128, .f32⟩ : BufTy).Contents (Elt F)) : (⟨S50000x128, .f32⟩ : BufTy).Contents (Elt F) :=
  bias1Row a (broadcastInDim S1x128 ![1] bcast_S128_S1x128_1 b)

/-- The second layer's closing step on the bias vector: laid out as a row, then `bias2Row`. -/
def bias2 (a : (⟨S50000x64, .f32⟩ : BufTy).Contents (Elt F)) (b : (⟨S64, .f32⟩ : BufTy).Contents (Elt F)) : (⟨S50000x64, .f32⟩ : BufTy).Contents (Elt F) :=
  bias2Row a (broadcastInDim S1x64 ![1] bcast_S64_S1x64_1 b)

/-- The first layer. -/
def layer1 (x : (⟨S50000x128, .f32⟩ : BufTy).Contents (Elt F)) (e : (⟨S2x800000, .i32⟩ : BufTy).Contents (Elt F)) (w1 : (⟨S128x128, .f32⟩ : BufTy).Contents (Elt F)) (b1 : (⟨S128, .f32⟩ : BufTy).Contents (Elt F)) : (⟨S50000x128, .f32⟩ : BufTy).Contents (Elt F) :=
  bias1 (agg128 (mm1 x w1) (srcIdx e) (dstIdx e) (norm e)) b1

/-- The network: the second layer applied to the first layer's output. -/
def out (x : (⟨S50000x128, .f32⟩ : BufTy).Contents (Elt F)) (e : (⟨S2x800000, .i32⟩ : BufTy).Contents (Elt F)) (w1 : (⟨S128x128, .f32⟩ : BufTy).Contents (Elt F)) (b1 : (⟨S128, .f32⟩ : BufTy).Contents (Elt F)) (w2 : (⟨S128x64, .f32⟩ : BufTy).Contents (Elt F)) (b2 : (⟨S64, .f32⟩ : BufTy).Contents (Elt F)) : (⟨S50000x64, .f32⟩ : BufTy).Contents (Elt F) :=
  bias2 (agg64 (mm2 (layer1 x e w1 b1) w2) (srcIdx e) (dstIdx e) (norm e)) b2

end Cert.Gcn

end
-- ==== Proof.RefValue.lean ====
/-
  The reference's result is the network applied to its arguments.

  The reference's run ends with its result buffer at one composed term of the six arguments: the host operations of the
  program substituted into one another. That term is, operation for operation, the specification's `out` with its index lists,
  weights, aggregations, products and closing steps written out, so the two are equal by unfolding the specification's
  definitions and nothing else; no operation is opened.
-/
import proofs.«115861_j11029476016726_1_alg».proof.Proof.RefRun
import proofs.«115861_j11029476016726_1_alg».proof.Proof.Spec

set_option maxRecDepth 16384

noncomputable section

open Idealize.ShloMosaic Idealize.ShloMosaic.TcCoe Idealize.SL.Sem

namespace Cert.ReferenceIdeal.RefValue

open Cert.ReferenceIdeal

variable {F : FTy → Type} [FloatOps F]

/-- The reference's result term is `Gcn.out` of the launch contents of its six arguments. -/
theorem res_eq (m : (ℓ : Loc nD τ sig) → Buf (Elt F) ℓ) (c : Dev nD) :
    Cert.ReferenceIdeal.ValueP.res_out0 (F := F) m c
      = Cert.Gcn.out (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

end Cert.ReferenceIdeal.RefValue

end
-- ==== Proof.Mm1.lean ====
/-
  The first matrix product, through the pipeline.

  Region 0 of the program multiplies the node features [50000,128] by the weights [128,128] in ten blocks of 5000 rows:
  point `t` loads rows 5000·t … 5000·t + 4999 of the features and the whole weight matrix, and stores their product as
  rows 5000·t … of the result. Entry (p, c) of that block is the sum over k of x(5000·t + p, k) · w(k, c) — the changes of
  format before the product are the identity on the extended reals, and the accumulator is zero —, which is entry
  (5000·t + p, c) of the product of the WHOLE matrices: a row of a product depends on that row of the left factor only.
  The ten blocks tile the result (row r lies in block r / 5000), so after the run the result array is the whole product.
-/
import proofs.«115861_j11029476016726_1_alg».proof.Proof.Gen.KernelIdeal.Frame
import proofs.«115861_j11029476016726_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Mm1

open Cert.KernelIdeal Cert.KernelIdeal.Gen

theorem hz : (![0, 0] : Fin 2 → Nat) = fun _ => 0 := funext fun a => by fin_cases a <;> rfl

/-! ## The block product as a sum over the contracted axis -/

theorem lhsK_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsK_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhsK_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhsK_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `j 0`, column `k` of a [5000,128] block. -/
abbrev lK (j : S5000x128.Idx) (k : Fin 128) : S5000x128.Idx := fun a => match a with
  | ⟨0, _⟩ => ⟨(j 0).val, (j 0).isLt⟩
  | ⟨1, _⟩ => ⟨k.val, k.isLt⟩
/-- Row `k`, column `j 1` of the [128,128] weights. -/
abbrev rK (j : S5000x128.Idx) (k : Fin 128) : S128x128.Idx := fun a => match a with
  | ⟨0, _⟩ => ⟨k.val, k.isLt⟩
  | ⟨1, _⟩ => ⟨(j 1).val, (j 1).isLt⟩

/-- What the body stores, at an entry: the row of the features' block against the column of the weights. -/
theorem pay_apply (x : Vec Ideal S5000x128 .f32) (w : Vec Ideal S128x128 .f32) (j : S5000x128.Idx) :
    k0_pay1 (F := Ideal) x w j = ∑ k : Fin 128, x (lK j k) * w (rK j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lK j k := funext fun a => Fin.ext (by
    match a with
    | ⟨0, _⟩ => exact lhsK_0 _ _
    | ⟨1, _⟩ => exact (lhsK_1 _ _).trans hk)
  have er : dot_S5000x128_S128x128_S5000x128_1_0_0_1_n_n.rhsIdx j ((ValueIdx.contrEquiv1 dot_S5000x128_S128x128_S5000x128_1_0_0_1_n_n 128 rfl rfl).symm k) = rK j k := funext fun a => Fin.ext (by
    match a with
    | ⟨0, _⟩ => exact (rhsK_0 _ _).trans hk
    | ⟨1, _⟩ => exact rhsK_1 _ _)
  rw [el, er]
  rfl

/-! ## The whole product as a sum over the contracted axis -/

theorem lhsR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhsR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- Row `i 0`, column `k` of the [50000,128] features. -/
abbrev lR (i : Cert.ReferenceIdeal.S50000x128.Idx) (k : Fin 128) : Cert.ReferenceIdeal.S50000x128.Idx := fun a => match a with
  | ⟨0, _⟩ => ⟨(i 0).val, (i 0).isLt⟩
  | ⟨1, _⟩ => ⟨k.val, k.isLt⟩
/-- Row `k`, column `i 1` of the [128,128] weights. -/
abbrev rR (i : Cert.ReferenceIdeal.S50000x128.Idx) (k : Fin 128) : Cert.ReferenceIdeal.S128x128.Idx := fun a => match a with
  | ⟨0, _⟩ => ⟨k.val, k.isLt⟩
  | ⟨1, _⟩ => ⟨(i 1).val, (i 1).isLt⟩

/-- The whole product at an entry: the row of the features against the column of the weights. -/
theorem mm1_apply (X : (⟨Cert.ReferenceIdeal.S50000x128, .f32⟩ : BufTy).Contents (Elt Ideal)) (W : (⟨Cert.ReferenceIdeal.S128x128, .f32⟩ : BufTy).Contents (Elt Ideal))
    (i : Cert.ReferenceIdeal.S50000x128.Idx) :
    Cert.Gcn.mm1 (F := Ideal) X W i = ∑ k : Fin 128, X (lR i k) * W (rR i k) := by
  unfold Cert.Gcn.mm1
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = lR i k := funext fun a => Fin.ext (by
    match a with
    | ⟨0, _⟩ => exact lhsR_0 _ _
    | ⟨1, _⟩ => exact (lhsR_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = rR i k := funext fun a => Fin.ext (by
    match a with
    | ⟨0, _⟩ => exact (rhsR_0 _ _).trans hk
    | ⟨1, _⟩ => exact rhsR_1 _ _)
  rw [el, er]

/-! ## The region -/

variable (V : (c : Dev nD) → (b : Ref sig .tc) → Buf (Elt Ideal) ((c : Thread nD τ).loc b))

/-- The features' block and the weights' block at a point, and the two arrays as the region finds them. -/
abbrev xblk (c : Dev nD) (t : Fin cfg0.N) : Vec Ideal S5000x128 .f32 := iblk0 V c 0 t
abbrev wblk (c : Dev nD) (t : Fin cfg0.N) : Vec Ideal S128x128 .f32 := iblk0 V c 1 t
abbrev xarr (c : Dev nD) : Vec Ideal S50000x128 .f32 := V c main_arg0
abbrev warr (c : Dev nD) : Vec Ideal S128x128 .f32 := V c main_arg2

/-- The printed index maps over the grid: the features' and the result's block index is the point, the weights' is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows 5000·t … of the features. -/
theorem xblk_apply (c : Dev nD) (t : Fin cfg0.N) (y : S5000x128.Idx) (i : S50000x128.Idx)
    (h0 : (i 0).val = 5000 * t.val + (y 0).val) (h1 : (i 1).val = (y 1).val) :
    xblk V c t y = xarr V c i := by
  obtain ⟨e0, e1, -, -, -, -⟩ := idx_facts t
  unfold xblk iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weights' block at every point is the weights. -/
theorem wblk_apply (c : Dev nD) (t : Fin cfg0.N) (y : S128x128.Idx) (i : S128x128.Idx)
    (h0 : (i 0).val = (y 0).val) (h1 : (i 1).val = (y 1).val) :
    wblk V c t y = warr V c i := by
  obtain ⟨-, -, e2, e3, -, -⟩ := idx_facts t
  unfold wblk iblk0
  rw [View.read_apply]
  show V c main_arg2 _ = V c main_arg2 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-- WHAT POINT `t` WRITES BACK is block `t` of the whole product. -/
theorem flushed_eq (c : Dev nD) (t : Fin cfg0.N) :
    (dat0 V c).flushed 2 t = ((cfg0.win 2).blk t).view.read (Elt Ideal) (Cert.Gcn.mm1 (F := Ideal) (xarr V c) (warr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  show k0_pay1 (F := Ideal) (xblk V c t) (wblk V c t) j = Cert.Gcn.mm1 (F := Ideal) (xarr V c) (warr V c) (((cfg0.win 2).blk t).view.emb j)
  rw [pay_apply, mm1_apply]
  refine Finset.sum_congr rfl fun k _ => ?_
  have hx : xblk V c t (lK j k) = xarr V c (lR (((cfg0.win 2).blk t).view.emb j) k) := by
    refine xblk_apply V c t _ _ ?_ rfl
    show win0_2.index t (0 : Fin 2) * 5000 + 1 * (j 0).val = 5000 * t.val + (j 0).val
    rw [e4]; omega
  have hw : wblk V c t (rK j k) = warr V c (rR (((cfg0.win 2).blk t).view.emb j) k) := by
    refine wblk_apply V c t _ _ rfl ?_
    show win0_2.index t (1 : Fin 2) * 128 + 1 * (j 1).val = (j 1).val
    rw [e5]; omega
  rw [hx, hw]

/-- An index of the result is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the result lies in the block of the point its row divided by 5000 names. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- THE RESULT ARRAY after region 0: the product of the two arrays the region finds. -/
theorem final (c : Dev nD) :
    (dat0 V c).arrAt 2 cfg0.N = Cert.Gcn.mm1 (F := Ideal) (xarr V c) (warr V c) :=
  (dat0 V c).arrAt_eq_of_cover 2 (Cert.Gcn.mm1 (F := Ideal) (xarr V c) (warr V c)) (fun t _ => flushed_eq V c t) (cover)

end Cert.KernelIdeal.Mm1

end
-- ==== Proof.Bias1.lean ====
/-
  The first layer's closing step, through the pipeline.

  Region 1 of the program takes the aggregated features [50000,128] in ten blocks of 5000 rows and the bias as a [1,128] row,
  the same row at every point, and stores, entry by entry, the larger of "the feature plus the bias of its column" and zero.
  That is block `t` of ONE function of the two arrays, the whole array plus the row laid over every row and cut off below at
  zero, so after the run the result array is that function of what the region found.
-/
import proofs.«115861_j11029476016726_1_alg».proof.Proof.Gen.KernelIdeal.Frame
import proofs.«115861_j11029476016726_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Bias1

open Cert.KernelIdeal Cert.KernelIdeal.Gen

theorem hz : (![0, 0] : Fin 2 → Nat) = fun _ => 0 := funext fun a => by fin_cases a <;> rfl

/-! ## The body and the whole-array function at an entry -/

/-- The bias row's entry over column `j 1`. -/
abbrev rowK (j : S5000x128.Idx) : S1x128.Idx := fun a => match a with
  | ⟨0, _⟩ => ⟨0, Nat.one_pos⟩
  | ⟨1, _⟩ => ⟨(j 1).val, (j 1).isLt⟩

/-- What the body stores, at an entry: the feature plus its column's bias, or zero if that is larger. -/
theorem pay_apply (x : Vec Ideal S5000x128 .f32) (r : Vec Ideal S1x128 .f32) (j : S5000x128.Idx) :
    k1_pay1 (F := Ideal) x r j = max (x j + r (rowK j)) (Ideal.ofBits .f32 0x00000000#32) := by
  unfold k1_pay1
  simp only [shapeCast_self]
  have hb : broadcastTo S5000x128 r broadcasts_S1x128_S5000x128 j = r (rowK j) :=
    broadcastTo_apply r broadcasts_S1x128_S5000x128 j (rowK j) (fun a => match a with
      | ⟨0, _⟩ => by show (0 : Nat) = if (1 : Nat) = 1 then 0 else _; rw [if_pos rfl]
      | ⟨1, _⟩ => by show (j 1).val = if (128 : Nat) = 1 then 0 else (j 1).val; rw [if_neg (by decide)])
  show max (x j + broadcastTo S5000x128 r broadcasts_S1x128_S5000x128 j) _ = _
  rw [hb]
  rfl

/-- The bias row's entry over column `i 1`, in the whole array's index type. -/
abbrev rowR (i : Cert.ReferenceIdeal.S50000x128.Idx) : Cert.ReferenceIdeal.S1x128.Idx := fun a => match a with
  | ⟨0, _⟩ => ⟨0, Nat.one_pos⟩
  | ⟨1, _⟩ => ⟨(i 1).val, (i 1).isLt⟩

/-- The whole-array function at an entry. -/
theorem bias1Row_apply (a : (⟨Cert.ReferenceIdeal.S50000x128, .f32⟩ : BufTy).Contents (Elt Ideal)) (r : (⟨Cert.ReferenceIdeal.S1x128, .f32⟩ : BufTy).Contents (Elt Ideal))
    (i : Cert.ReferenceIdeal.S50000x128.Idx) :
    Cert.Gcn.bias1Row (F := Ideal) a r i = max (a i + r (rowR i)) (Ideal.ofBits .f32 0x00000000#32) := by
  unfold Cert.Gcn.bias1Row
  have hb : broadcastInDim Cert.ReferenceIdeal.S50000x128 ![0, 1] Cert.ReferenceIdeal.Gen.bcast_S1x128_S50000x128_0_1 r i = r (rowR i) :=
    broadcastInDim_apply _ Cert.ReferenceIdeal.Gen.bcast_S1x128_S50000x128_0_1 r i (rowR i) (fun a => match a with
      | ⟨0, _⟩ => by show (0 : Nat) = if (1 : Nat) = 1 then 0 else _; rw [if_pos rfl]
      | ⟨1, _⟩ => by show (i 1).val = if (128 : Nat) = 1 then 0 else (i 1).val; rw [if_neg (by decide)])
  have hc : ∀ z : (⟨Cert.ReferenceIdeal.S_, .f32⟩ : BufTy).Contents (Elt Ideal),
      broadcastInDim Cert.ReferenceIdeal.S50000x128 (![] : Fin Cert.ReferenceIdeal.S_.rank → Fin Cert.ReferenceIdeal.S50000x128.rank) Cert.ReferenceIdeal.Gen.bcast_S_S50000x128 z i = z (fun a => a.elim0) :=
    fun z => broadcastInDim_apply _ Cert.ReferenceIdeal.Gen.bcast_S_S50000x128 z i (fun a => a.elim0) (fun a => a.elim0)
  exact congrArg₂ max (congrArg (fun z => a i + z) hb) (hc _)

/-! ## The region -/

variable (V : (c : Dev nD) → (b : Ref sig .tc) → Buf (Elt Ideal) ((c : Thread nD τ).loc b))

/-- The features' block and the bias row's block at a point, and the two arrays as the region finds them. -/
abbrev ablk (c : Dev nD) (t : Fin cfg1.N) : Vec Ideal S5000x128 .f32 := iblk1 V c 0 t
abbrev rblk (c : Dev nD) (t : Fin cfg1.N) : Vec Ideal S1x128 .f32 := iblk1 V c 1 t
abbrev aarr (c : Dev nD) : Vec Ideal S50000x128 .f32 := V c main_v43
abbrev rarr (c : Dev nD) : Vec Ideal S1x128 .f32 := V c main_v44

/-- The printed index maps over the grid: the features' and the result's block index is the point, the bias row's is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The features' block at point `t` is rows 5000·t … of the features. -/
theorem ablk_apply (c : Dev nD) (t : Fin cfg1.N) (y : S5000x128.Idx) (i : S50000x128.Idx)
    (h0 : (i 0).val = 5000 * t.val + (y 0).val) (h1 : (i 1).val = (y 1).val) :
    ablk V c t y = aarr V c i := by
  obtain ⟨e0, e1, -, -, -, -⟩ := idx_facts t
  unfold ablk iblk1
  rw [View.read_apply]
  show V c main_v43 _ = V c main_v43 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The bias row's block at every point is the bias row. -/
theorem rblk_apply (c : Dev nD) (t : Fin cfg1.N) (y : S1x128.Idx) (i : S1x128.Idx)
    (h0 : (i 0).val = (y 0).val) (h1 : (i 1).val = (y 1).val) :
    rblk V c t y = rarr V c i := by
  obtain ⟨-, -, e2, e3, -, -⟩ := idx_facts t
  unfold rblk iblk1
  rw [View.read_apply]
  show V c main_v44 _ = V c main_v44 _
  congr 1
  funext a
  apply Fin.ext
  match a with
  | ⟨0, _⟩ => show win1_1.index t (0 : Fin 2) * 1 + 1 * (y 0).val = (i 0).val; rw [e2, h0]; omega
  | ⟨1, _⟩ => show win1_1.index t (1 : Fin 2) * 128 + 1 * (y 1).val = (i 1).val; rw [e3, h1]; omega

/-- WHAT POINT `t` WRITES BACK is block `t` of the whole-array function. -/
theorem flushed_eq (c : Dev nD) (t : Fin cfg1.N) :
    (dat1 V c).flushed 2 t = ((cfg1.win 2).blk t).view.read (Elt Ideal) (Cert.Gcn.bias1Row (F := Ideal) (aarr V c) (rarr V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx_facts t
  funext j
  show k1_pay1 (F := Ideal) (ablk V c t) (rblk V c t) j = Cert.Gcn.bias1Row (F := Ideal) (aarr V c) (rarr V c) (((cfg1.win 2).blk t).view.emb j)
  rw [pay_apply, bias1Row_apply]
  have ha : ablk V c t j = aarr V c (((cfg1.win 2).blk t).view.emb j) := by
    refine ablk_apply V c t _ _ ?_ ?_
    · show win1_2.index t (0 : Fin 2) * 5000 + 1 * (j 0).val = 5000 * t.val + (j 0).val
      rw [e4]; omega
    · show win1_2.index t (1 : Fin 2) * 128 + 1 * (j 1).val = (j 1).val
      rw [e5]; omega
  have hr : rblk V c t (rowK j) = rarr V c (rowR (((cfg1.win 2).blk t).view.emb j)) := by
    refine rblk_apply V c t _ _ rfl ?_
    show win1_2.index t (1 : Fin 2) * 128 + 1 * (j 1).val = (j 1).val
    rw [e5]; omega
  rw [ha, hr]

/-- An index of the result is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every entry of the result lies in the block of the point its row divided by 5000 names. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- THE RESULT ARRAY after region 1: the whole-array function of the two arrays the region finds. -/
theorem final (c : Dev nD) :
    (dat1 V c).arrAt 2 cfg1.N = Cert.Gcn.bias1Row (F := Ideal) (aarr V c) (rarr V c) :=
  (dat1 V c).arrAt_eq_of_cover 2 (Cert.Gcn.bias1Row (F := Ideal) (aarr V c) (rarr V c)) (fun t _ => flushed_eq V c t) (cover)

end Cert.KernelIdeal.Bias1

end
-- ==== Proof.Mm2.lean ====
/-
  The second matrix product, through the pipeline.

  Region 2 of the program multiplies the first layer's output [50000,128] by the second weights [128,64], again in ten
  blocks of 5000 rows: point `t` loads rows 5000·t … of the left factor and the whole weight matrix and stores their product
  as rows 5000·t … of the [50000,64] result. Entry (p, c) of a block is the sum over k of h(5000·t + p, k) · w(k, c), which is
  entry (5000·t + p, c) of the product of the whole matrices; the blocks tile the result, so after the run the result array
  is the whole product.
-/
import proofs.«115861_j11029476016726_1_alg».proof.Proof.Gen.KernelIdeal.Frame
import proofs.«115861_j11029476016726_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Mm2

open Cert.KernelIdeal Cert.KernelIdeal.Gen

theorem hz : (![0, 0] : Fin 2 → Nat) = fun _ => 0 := funext fun a => by fin_cases a <;> rfl

/-! ## The block product as a sum over the contracted axis -/

theorem lhsK_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsK_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhsK_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhsK_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `j 0`, column `k` of a [5000,128] block. -/
abbrev lK (j : S5000x64.Idx) (k : Fin 128) : S5000x128.Idx := fun a => match a with
  | ⟨0, _⟩ => ⟨(j 0).val, (j 0).isLt⟩
  | ⟨1, _⟩ => ⟨k.val, k.isLt⟩
/-- Row `k`, column `j 1` of the [128,64] weights. -/
abbrev rK (j : S5000x64.Idx) (k : Fin 128) : S128x64.Idx := fun a => match a with
  | ⟨0, _⟩ => ⟨k.val, k.isLt⟩
  | ⟨1, _⟩ => ⟨(j 1).val, (j 1).isLt⟩

/-- What the body stores, at an entry: the row of the left block against the column of the weights. -/
theorem pay_apply (x : Vec Ideal S5000x128 .f32) (w : Vec Ideal S128x64 .f32) (j : S5000x64.Idx) :
    k2_pay1 (F := Ideal) x w j = ∑ k : Fin 128, x (lK j k) * w (rK j k) := by
  unfold k2_pay1
  simp only [matmul, shapeCast_self]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lK j k := funext fun a => Fin.ext (by
    match a with
    | ⟨0, _⟩ => exact lhsK_0 _ _
    | ⟨1, _⟩ => exact (lhsK_1 _ _).trans hk)
  have er : dot_S5000x128_S128x64_S5000x64_1_0_0_1_n_n.rhsIdx j ((ValueIdx.contrEquiv1 dot_S5000x128_S128x64_S5000x64_1_0_0_1_n_n 128 rfl rfl).symm k) = rK j k := funext fun a => Fin.ext (by
    match a with
    | ⟨0, _⟩ => exact (rhsK_0 _ _).trans hk
    | ⟨1, _⟩ => exact rhsK_1 _ _)
  rw [el, er]
  rfl

/-! ## The whole product as a sum over the contracted axis -/

theorem lhsR_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem lhsR_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem rhsR_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem rhsR_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- Row `i 0`, column `k` of the [50000,128] left factor. -/
abbrev lR (i : Cert.ReferenceIdeal.S50000x64.Idx) (k : Fin 128) : Cert.ReferenceIdeal.S50000x128.Idx := fun a => match a with
  | ⟨0, _⟩ => ⟨(i 0).val, (i 0).isLt⟩
  | ⟨1, _⟩ => ⟨k.val, k.isLt⟩
/-- Row `k`, column `i 1` of the [128,64] weights. -/
abbrev rR (i : Cert.ReferenceIdeal.S50000x64.Idx) (k : Fin 128) : Cert.ReferenceIdeal.S128x64.Idx := fun a => match a with
  | ⟨0, _⟩ => ⟨k.val, k.isLt⟩
  | ⟨1, _⟩ => ⟨(i 1).val, (i 1).isLt⟩

/-- The whole product at an entry: the row of the left factor against the column of the weights. -/
theorem mm2_apply (X : (⟨Cert.ReferenceIdeal.S50000x128, .f32⟩ : BufTy).Contents (Elt Ideal)) (W : (⟨Cert.ReferenceIdeal.S128x64, .f32⟩ : BufTy).Contents (Elt Ideal))
    (i : Cert.ReferenceIdeal.S50000x64.Idx) :
    Cert.Gcn.mm2 (F := Ideal) X W i = ∑ k : Fin 128, X (lR i k) * W (rR i k) := by
  unfold Cert.Gcn.mm2
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = lR i k := funext fun a => Fin.ext (by
    match a with
    | ⟨0, _⟩ => exact lhsR_0 _ _
    | ⟨1, _⟩ => exact (lhsR_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = rR i k := funext fun a => Fin.ext (by
    match a with
    | ⟨0, _⟩ => exact (rhsR_0 _ _).trans hk
    | ⟨1, _⟩ => exact rhsR_1 _ _)
  rw [el, er]

/-! ## The region -/

variable (V : (c : Dev nD) → (b : Ref sig .tc) → Buf (Elt Ideal) ((c : Thread nD τ).loc b))

/-- The left factor's block and the weights' block at a point, and the two arrays as the region finds them. -/
abbrev xblk (c : Dev nD) (t : Fin cfg2.N) : Vec Ideal S5000x128 .f32 := iblk2 V c 0 t
abbrev wblk (c : Dev nD) (t : Fin cfg2.N) : Vec Ideal S128x64 .f32 := iblk2 V c 1 t
abbrev xarr (c : Dev nD) : Vec Ideal S50000x128 .f32 := V c main_v45
abbrev warr (c : Dev nD) : Vec Ideal S128x64 .f32 := V c main_arg4

/-- The printed index maps over the grid: the left factor's and the result's block index is the point, the weights' is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point `t` is rows 5000·t … of the left factor. -/
theorem xblk_apply (c : Dev nD) (t : Fin cfg2.N) (y : S5000x128.Idx) (i : S50000x128.Idx)
    (h0 : (i 0).val = 5000 * t.val + (y 0).val) (h1 : (i 1).val = (y 1).val) :
    xblk V c t y = xarr V c i := by
  obtain ⟨e0, e1, -, -, -, -⟩ := idx_facts t
  unfold xblk iblk2
  rw [View.read_apply]
  show V c main_v45 _ = V c main_v45 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weights' block at every point is the weights. -/
theorem wblk_apply (c : Dev nD) (t : Fin cfg2.N) (y : S128x64.Idx) (i : S128x64.Idx)
    (h0 : (i 0).val = (y 0).val) (h1 : (i 1).val = (y 1).val) :
    wblk V c t y = warr V c i := by
  obtain ⟨-, -, e2, e3, -, -⟩ := idx_facts t
  unfold wblk iblk2
  rw [View.read_apply]
  show V c main_arg4 _ = V c main_arg4 _
  congr 1
  funext a
  apply Fin.ext
  match a with
  | ⟨0, _⟩ => show win2_1.index t (0 : Fin 2) * 128 + 1 * (y 0).val = (i 0).val; rw [e2, h0]; omega
  | ⟨1, _⟩ => show win2_1.index t (1 : Fin 2) * 64 + 1 * (y 1).val = (i 1).val; rw [e3, h1]; omega

/-- WHAT POINT `t` WRITES BACK is block `t` of the whole product. -/
theorem flushed_eq (c : Dev nD) (t : Fin cfg2.N) :
    (dat2 V c).flushed 2 t = ((cfg2.win 2).blk t).view.read (Elt Ideal) (Cert.Gcn.mm2 (F := Ideal) (xarr V c) (warr V c)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨-, -, -, -, e4, e5⟩ := idx_facts t
  funext j
  show k2_pay1 (F := Ideal) (xblk V c t) (wblk V c t) j = Cert.Gcn.mm2 (F := Ideal) (xarr V c) (warr V c) (((cfg2.win 2).blk t).view.emb j)
  rw [pay_apply, mm2_apply]
  refine Finset.sum_congr rfl fun k _ => ?_
  have hx : xblk V c t (lK j k) = xarr V c (lR (((cfg2.win 2).blk t).view.emb j) k) := by
    refine xblk_apply V c t _ _ ?_ rfl
    show win2_2.index t (0 : Fin 2) * 5000 + 1 * (j 0).val = 5000 * t.val + (j 0).val
    rw [e4]; omega
  have hw : wblk V c t (rK j k) = warr V c (rR (((cfg2.win 2).blk t).view.emb j) k) := by
    refine wblk_apply V c t _ _ rfl ?_
    show win2_2.index t (1 : Fin 2) * 64 + 1 * (j 1).val = (j 1).val
    rw [e5]; omega
  rw [hx, hw]

/-- An index of the result is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Every entry of the result lies in the block of the point its row divided by 5000 names. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- THE RESULT ARRAY after region 2: the product of the two arrays the region finds. -/
theorem final (c : Dev nD) :
    (dat2 V c).arrAt 2 cfg2.N = Cert.Gcn.mm2 (F := Ideal) (xarr V c) (warr V c) :=
  (dat2 V c).arrAt_eq_of_cover 2 (Cert.Gcn.mm2 (F := Ideal) (xarr V c) (warr V c)) (fun t _ => flushed_eq V c t) (cover)

end Cert.KernelIdeal.Mm2

end
-- ==== Proof.Bias2.lean ====
/-
  The second layer's closing step, through the pipeline.

  Region 3 of the program takes the second aggregation [50000,64] in ten blocks of 5000 rows and the second bias as a [1,64]
  row, the same row at every point, and stores, entry by entry, the feature plus the bias of its column. That is block `t`
  of ONE function of the two arrays, the whole array plus the row laid over every row, so after the run the result array —
  the program's result — is that function of what the region found.
-/
import proofs.«115861_j11029476016726_1_alg».proof.Proof.Gen.KernelIdeal.Frame
import proofs.«115861_j11029476016726_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Bias2

open Cert.KernelIdeal Cert.KernelIdeal.Gen

theorem hz : (![0, 0] : Fin 2 → Nat) = fun _ => 0 := funext fun a => by fin_cases a <;> rfl

/-! ## The body and the whole-array function at an entry -/

/-- The bias row's entry over column `j 1`. -/
abbrev rowK (j : S5000x64.Idx) : S1x64.Idx := fun a => match a with
  | ⟨0, _⟩ => ⟨0, Nat.one_pos⟩
  | ⟨1, _⟩ => ⟨(j 1).val, (j 1).isLt⟩

/-- What the body stores, at an entry: the feature plus its column's bias. -/
theorem pay_apply (x : Vec Ideal S5000x64 .f32) (r : Vec Ideal S1x64 .f32) (j : S5000x64.Idx) :
    k3_pay1 (F := Ideal) x r j = x j + r (rowK j) := by
  unfold k3_pay1
  simp only [shapeCast_self]
  have hb : broadcastTo S5000x64 r broadcasts_S1x64_S5000x64 j = r (rowK j) :=
    broadcastTo_apply r broadcasts_S1x64_S5000x64 j (rowK j) (fun a => match a with
      | ⟨0, _⟩ => by show (0 : Nat) = if (1 : Nat) = 1 then 0 else _; rw [if_pos rfl]
      | ⟨1, _⟩ => by show (j 1).val = if (64 : Nat) = 1 then 0 else (j 1).val; rw [if_neg (by decide)])
  show x j + broadcastTo S5000x64 r broadcasts_S1x64_S5000x64 j = _
  rw [hb]

/-- The bias row's entry over column `i 1`, in the whole array's index type. -/
abbrev rowR (i : Cert.ReferenceIdeal.S50000x64.Idx) : Cert.ReferenceIdeal.S1x64.Idx := fun a => match a with
  | ⟨0, _⟩ => ⟨0, Nat.one_pos⟩
  | ⟨1, _⟩ => ⟨(i 1).val, (i 1).isLt⟩

/-- The whole-array function at an entry. -/
theorem bias2Row_apply (a : (⟨Cert.ReferenceIdeal.S50000x64, .f32⟩ : BufTy).Contents (Elt Ideal)) (r : (⟨Cert.ReferenceIdeal.S1x64, .f32⟩ : BufTy).Contents (Elt Ideal))
    (i : Cert.ReferenceIdeal.S50000x64.Idx) :
    Cert.Gcn.bias2Row (F := Ideal) a r i = a i + r (rowR i) := by
  unfold Cert.Gcn.bias2Row
  have hb : broadcastInDim Cert.ReferenceIdeal.S50000x64 ![0, 1] Cert.ReferenceIdeal.Gen.bcast_S1x64_S50000x64_0_1 r i = r (rowR i) :=
    broadcastInDim_apply _ Cert.ReferenceIdeal.Gen.bcast_S1x64_S50000x64_0_1 r i (rowR i) (fun a => match a with
      | ⟨0, _⟩ => by show (0 : Nat) = if (1 : Nat) = 1 then 0 else _; rw [if_pos rfl]
      | ⟨1, _⟩ => by show (i 1).val = if (64 : Nat) = 1 then 0 else (i 1).val; rw [if_neg (by decide)])
  exact congrArg (fun z => a i + z) hb

/-! ## The region -/

variable (V : (c : Dev nD) → (b : Ref sig .tc) → Buf (Elt Ideal) ((c : Thread nD τ).loc b))

/-- The features' block and the bias row's block at a point, and the two arrays as the region finds them. -/
abbrev ablk (c : Dev nD) (t : Fin cfg3.N) : Vec Ideal S5000x64 .f32 := iblk3 V c 0 t
abbrev rblk (c : Dev nD) (t : Fin cfg3.N) : Vec Ideal S1x64 .f32 := iblk3 V c 1 t
abbrev aarr (c : Dev nD) : Vec Ideal S50000x64 .f32 := V c main_v59
abbrev rarr (c : Dev nD) : Vec Ideal S1x64 .f32 := V c main_v60

/-- The printed index maps over the grid: the features' and the result's block index is the point, the bias row's is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The features' block at point `t` is rows 5000·t … of the features. -/
theorem ablk_apply (c : Dev nD) (t : Fin cfg3.N) (y : S5000x64.Idx) (i : S50000x64.Idx)
    (h0 : (i 0).val = 5000 * t.val + (y 0).val) (h1 : (i 1).val = (y 1).val) :
    ablk V c t y = aarr V c i := by
  obtain ⟨e0, e1, -, -, -, -⟩ := idx_facts t
  unfold ablk iblk3
  rw [View.read_apply]
  show V c main_v59 _ = V c main_v59 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The bias row's block at every point is the bias row. -/
theorem rblk_apply (c : Dev nD) (t : Fin cfg3.N) (y : S1x64.Idx) (i : S1x64.Idx)
    (h0 : (i 0).val = (y 0).val) (h1 : (i 1).val = (y 1).val) :
    rblk V c t y = rarr V c i := by
  obtain ⟨-, -, e2, e3, -, -⟩ := idx_facts t
  unfold rblk iblk3
  rw [View.read_apply]
  show V c main_v60 _ = V c main_v60 _
  congr 1
  funext a
  apply Fin.ext
  match a with
  | ⟨0, _⟩ => show win3_1.index t (0 : Fin 2) * 1 + 1 * (y 0).val = (i 0).val; rw [e2, h0]; omega
  | ⟨1, _⟩ => show win3_1.index t (1 : Fin 2) * 64 + 1 * (y 1).val = (i 1).val; rw [e3, h1]; omega

/-- WHAT POINT `t` WRITES BACK is block `t` of the whole-array function. -/
theorem flushed_eq (c : Dev nD) (t : Fin cfg3.N) :
    (dat3 V c).flushed 2 t = ((cfg3.win 2).blk t).view.read (Elt Ideal) (Cert.Gcn.bias2Row (F := Ideal) (aarr V c) (rarr V c)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨-, -, -, -, e4, e5⟩ := idx_facts t
  funext j
  show k3_pay1 (F := Ideal) (ablk V c t) (rblk V c t) j = Cert.Gcn.bias2Row (F := Ideal) (aarr V c) (rarr V c) (((cfg3.win 2).blk t).view.emb j)
  rw [pay_apply, bias2Row_apply]
  have ha : ablk V c t j = aarr V c (((cfg3.win 2).blk t).view.emb j) := by
    refine ablk_apply V c t _ _ ?_ ?_
    · show win3_2.index t (0 : Fin 2) * 5000 + 1 * (j 0).val = 5000 * t.val + (j 0).val
      rw [e4]; omega
    · show win3_2.index t (1 : Fin 2) * 64 + 1 * (j 1).val = (j 1).val
      rw [e5]; omega
  have hr : rblk V c t (rowK j) = rarr V c (rowR (((cfg3.win 2).blk t).view.emb j)) := by
    refine rblk_apply V c t _ _ rfl ?_
    show win3_2.index t (1 : Fin 2) * 64 + 1 * (j 1).val = (j 1).val
    rw [e5]; omega
  rw [ha, hr]

/-- An index of the result is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Every entry of the result lies in the block of the point its row divided by 5000 names. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨-, -, -, -, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

/-- THE RESULT ARRAY after region 3: the whole-array function of the two arrays the region finds. -/
theorem final (c : Dev nD) :
    (dat3 V c).arrAt 2 cfg3.N = Cert.Gcn.bias2Row (F := Ideal) (aarr V c) (rarr V c) :=
  (dat3 V c).arrAt_eq_of_cover 2 (Cert.Gcn.bias2Row (F := Ideal) (aarr V c) (rarr V c)) (fun t _ => flushed_eq V c t) (cover)

end Cert.KernelIdeal.Bias2

end
-- ==== Proof.Fold.lean ====
/-
  The result buffer at the end of the run, walked back through the program's nine segments.

  Between the kernel regions the program runs plain host operations: first the two index lists, the in-degree and the
  messages' weights from the edge list alone; after the first product the first aggregation and the bias laid out as a row;
  after the second product the second aggregation and the second bias row. Each stretch is read here at an ARBITRARY
  contents of the buffers before it — its results are the specification's functions of the buffers it reads, every other
  buffer is as before —, so no array is ever opened. A region leaves its result array at the whole-array function of the
  arrays it finds (the four region modules) and every other buffer as it was. Composed from the launch, the result buffer
  ends at `Gcn.out` of the six arguments.
-/
import proofs.«115861_j11029476016726_1_alg».proof.Proof.Gen.KernelIdeal.Frame
import proofs.«115861_j11029476016726_1_alg».proof.Proof.Spec
import proofs.«115861_j11029476016726_1_alg».proof.Proof.Mm1
import proofs.«115861_j11029476016726_1_alg».proof.Proof.Bias1
import proofs.«115861_j11029476016726_1_alg».proof.Proof.Mm2
import proofs.«115861_j11029476016726_1_alg».proof.Proof.Bias2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen

/-! ## The host stretches, each from arbitrary contents -/

section Stretches

variable {F : FTy → Type} [FloatOps F] (W : Valuation τ sig (Elt F))

/-! ### The first stretch: the index lists and the in-degree -/

theorem ops0_src : after (hostOps0 (F := F)) W (Proc.devRef .tc main_v3) = Cert.Gcn.srcIdx (F := F) (W (Proc.devRef .tc main_arg1)) := by
  after_results <;> rfl
theorem ops0_dst : after (hostOps0 (F := F)) W (Proc.devRef .tc main_v6) = Cert.Gcn.dstIdx (F := F) (W (Proc.devRef .tc main_arg1)) := by
  after_results <;> rfl
theorem ops0_pos : after (hostOps0 (F := F)) W (Proc.devRef .tc main_v12)
    = cmpf (F := F) .ogt (Cert.Gcn.deg (F := F) (Cert.Gcn.dstIdx (F := F) (W (Proc.devRef .tc main_arg1)))) (broadcastInDim S50000 ![] bcast_S_S50000 (constant S_ .f32 0x00000000#32)) := by
  after_results <;> rfl
theorem ops0_rsqrt : after (hostOps0 (F := F)) W (Proc.devRef .tc main_v13)
    = Host.rsqrt (Cert.Gcn.deg (F := F) (Cert.Gcn.dstIdx (F := F) (W (Proc.devRef .tc main_arg1)))) := by
  after_results <;> rfl
theorem ops0_zero : after (hostOps0 (F := F)) W (Proc.devRef .tc main_cst_2) = constant (F := F) S_ .f32 0x00000000#32 := by
  after_results <;> rfl
theorem ops0_arg0 : after (hostOps0 (F := F)) W (Proc.devRef .tc main_arg0) = W (Proc.devRef .tc main_arg0) := by after_results <;> rfl
theorem ops0_arg2 : after (hostOps0 (F := F)) W (Proc.devRef .tc main_arg2) = W (Proc.devRef .tc main_arg2) := by after_results <;> rfl
theorem ops0_arg3 : after (hostOps0 (F := F)) W (Proc.devRef .tc main_arg3) = W (Proc.devRef .tc main_arg3) := by after_results <;> rfl
theorem ops0_arg4 : after (hostOps0 (F := F)) W (Proc.devRef .tc main_arg4) = W (Proc.devRef .tc main_arg4) := by after_results <;> rfl
theorem ops0_arg5 : after (hostOps0 (F := F)) W (Proc.devRef .tc main_arg5) = W (Proc.devRef .tc main_arg5) := by after_results <;> rfl

/-! ### The second stretch: the inverse square root where the degree is positive -/

theorem ops01_dinv : after (hostOps0_1 (F := F)) W (Proc.devRef .tc main_v14)
    = select (W (Proc.devRef .tc main_v12)) (W (Proc.devRef .tc main_v13)) (broadcastInDim S50000 ![] bcast_S_S50000 (id (W (Proc.devRef .tc main_cst_2)))) := by
  after_results <;> rfl
theorem ops01_v3 : after (hostOps0_1 (F := F)) W (Proc.devRef .tc main_v3) = W (Proc.devRef .tc main_v3) := by after_results <;> rfl
theorem ops01_v6 : after (hostOps0_1 (F := F)) W (Proc.devRef .tc main_v6) = W (Proc.devRef .tc main_v6) := by after_results <;> rfl
theorem ops01_arg0 : after (hostOps0_1 (F := F)) W (Proc.devRef .tc main_arg0) = W (Proc.devRef .tc main_arg0) := by after_results <;> rfl
theorem ops01_arg2 : after (hostOps0_1 (F := F)) W (Proc.devRef .tc main_arg2) = W (Proc.devRef .tc main_arg2) := by after_results <;> rfl
theorem ops01_arg3 : after (hostOps0_1 (F := F)) W (Proc.devRef .tc main_arg3) = W (Proc.devRef .tc main_arg3) := by after_results <;> rfl
theorem ops01_arg4 : after (hostOps0_1 (F := F)) W (Proc.devRef .tc main_arg4) = W (Proc.devRef .tc main_arg4) := by after_results <;> rfl
theorem ops01_arg5 : after (hostOps0_1 (F := F)) W (Proc.devRef .tc main_arg5) = W (Proc.devRef .tc main_arg5) := by after_results <;> rfl

/-! ### The third stretch: the messages' weights -/

set_option maxHeartbeats 4000000 in
theorem ops02_norm : after (hostOps0_2 (F := F)) W (Proc.devRef .tc main_v29)
    = Cert.Gcn.normOf (F := F) (W (Proc.devRef .tc main_v14)) (W (Proc.devRef .tc main_v3)) (W (Proc.devRef .tc main_v6)) := by
  after_results_simp <;> rfl
theorem ops02_v3 : after (hostOps0_2 (F := F)) W (Proc.devRef .tc main_v3) = W (Proc.devRef .tc main_v3) := by after_results <;> rfl
theorem ops02_v6 : after (hostOps0_2 (F := F)) W (Proc.devRef .tc main_v6) = W (Proc.devRef .tc main_v6) := by after_results <;> rfl
theorem ops02_arg0 : after (hostOps0_2 (F := F)) W (Proc.devRef .tc main_arg0) = W (Proc.devRef .tc main_arg0) := by after_results <;> rfl
theorem ops02_arg2 : after (hostOps0_2 (F := F)) W (Proc.devRef .tc main_arg2) = W (Proc.devRef .tc main_arg2) := by after_results <;> rfl
theorem ops02_arg3 : after (hostOps0_2 (F := F)) W (Proc.devRef .tc main_arg3) = W (Proc.devRef .tc main_arg3) := by after_results <;> rfl
theorem ops02_arg4 : after (hostOps0_2 (F := F)) W (Proc.devRef .tc main_arg4) = W (Proc.devRef .tc main_arg4) := by after_results <;> rfl
theorem ops02_arg5 : after (hostOps0_2 (F := F)) W (Proc.devRef .tc main_arg5) = W (Proc.devRef .tc main_arg5) := by after_results <;> rfl

/-! ### Between the first product and the first closing step: the aggregation, and the bias as a row -/

set_option maxHeartbeats 4000000 in
theorem ops1_agg : after (hostOps1 (F := F)) W (Proc.devRef .tc main_v43)
    = Cert.Gcn.agg128 (F := F) (W (Proc.devRef .tc main_v30)) (W (Proc.devRef .tc main_v3)) (W (Proc.devRef .tc main_v6)) (W (Proc.devRef .tc main_v29)) := by
  after_results_simp <;> rfl
theorem ops1_row : after (hostOps1 (F := F)) W (Proc.devRef .tc main_v44) = shapeCast S1x128 (W (Proc.devRef .tc main_arg3)) shapeCasts_S128_S1x128 := by
  after_results <;> rfl
theorem ops1_v3 : after (hostOps1 (F := F)) W (Proc.devRef .tc main_v3) = W (Proc.devRef .tc main_v3) := by after_results <;> rfl
theorem ops1_v6 : after (hostOps1 (F := F)) W (Proc.devRef .tc main_v6) = W (Proc.devRef .tc main_v6) := by after_results <;> rfl
theorem ops1_v29 : after (hostOps1 (F := F)) W (Proc.devRef .tc main_v29) = W (Proc.devRef .tc main_v29) := by after_results <;> rfl
theorem ops1_arg4 : after (hostOps1 (F := F)) W (Proc.devRef .tc main_arg4) = W (Proc.devRef .tc main_arg4) := by after_results <;> rfl
theorem ops1_arg5 : after (hostOps1 (F := F)) W (Proc.devRef .tc main_arg5) = W (Proc.devRef .tc main_arg5) := by after_results <;> rfl

/-! ### Between the second product and the second closing step: the aggregation, and the bias as a row -/

set_option maxHeartbeats 4000000 in
theorem ops3_agg : after (hostOps3 (F := F)) W (Proc.devRef .tc main_v59)
    = Cert.Gcn.agg64 (F := F) (W (Proc.devRef .tc main_v46)) (W (Proc.devRef .tc main_v3)) (W (Proc.devRef .tc main_v6)) (W (Proc.devRef .tc main_v29)) := by
  after_results_simp <;> rfl
theorem ops3_row : after (hostOps3 (F := F)) W (Proc.devRef .tc main_v60) = shapeCast S1x64 (W (Proc.devRef .tc main_arg5)) shapeCasts_S64_S1x64 := by
  after_results <;> rfl

end Stretches

/-! ## A vector laid out as a one-row matrix, by a change of shape or by a broadcast along the new axis -/

theorem row128 (b : (⟨S128, .f32⟩ : BufTy).Contents (Elt Ideal)) :
    shapeCast S1x128 b shapeCasts_S128_S1x128 = broadcastInDim Cert.ReferenceIdeal.S1x128 ![1] Cert.ReferenceIdeal.Gen.bcast_S128_S1x128_1 b := by
  funext j
  have h0 : (j 0).val = 0 := by have h1 : (j 0).val < 1 := (j 0).isLt; omega
  have hl : shapeCast S1x128 b shapeCasts_S128_S1x128 j = b (fun a => match a with | ⟨0, _⟩ => ⟨(j 1).val, (j 1).isLt⟩) :=
    shapeCast_apply b shapeCasts_S128_S1x128 j _ (by
      simp only [Shape.rowMajor_val_one, Shape.rowMajor_val_two]
      show (j 1).val = (j 0).val * 128 + (j 1).val
      rw [h0]; omega)
  have hr : broadcastInDim Cert.ReferenceIdeal.S1x128 ![1] Cert.ReferenceIdeal.Gen.bcast_S128_S1x128_1 b j = b (fun a => match a with | ⟨0, _⟩ => ⟨(j 1).val, (j 1).isLt⟩) :=
    broadcastInDim_apply _ Cert.ReferenceIdeal.Gen.bcast_S128_S1x128_1 b j _ (fun a => match a with
      | ⟨0, _⟩ => by show (j 1).val = if (128 : Nat) = 1 then 0 else (j 1).val; rw [if_neg (by decide)])
  rw [hl, hr]

theorem row64 (b : (⟨S64, .f32⟩ : BufTy).Contents (Elt Ideal)) :
    shapeCast S1x64 b shapeCasts_S64_S1x64 = broadcastInDim Cert.ReferenceIdeal.S1x64 ![1] Cert.ReferenceIdeal.Gen.bcast_S64_S1x64_1 b := by
  funext j
  have h0 : (j 0).val = 0 := by have h1 : (j 0).val < 1 := (j 0).isLt; omega
  have hl : shapeCast S1x64 b shapeCasts_S64_S1x64 j = b (fun a => match a with | ⟨0, _⟩ => ⟨(j 1).val, (j 1).isLt⟩) :=
    shapeCast_apply b shapeCasts_S64_S1x64 j _ (by
      simp only [Shape.rowMajor_val_one, Shape.rowMajor_val_two]
      show (j 1).val = (j 0).val * 64 + (j 1).val
      rw [h0]; omega)
  have hr : broadcastInDim Cert.ReferenceIdeal.S1x64 ![1] Cert.ReferenceIdeal.Gen.bcast_S64_S1x64_1 b j = b (fun a => match a with | ⟨0, _⟩ => ⟨(j 1).val, (j 1).isLt⟩) :=
    broadcastInDim_apply _ Cert.ReferenceIdeal.Gen.bcast_S64_S1x64_1 b j _ (fun a => match a with
      | ⟨0, _⟩ => by show (j 1).val = if (64 : Nat) = 1 then 0 else (j 1).val; rw [if_neg (by decide)])
  rw [hl, hr]

/-! ## The boundaries, from the launch -/

variable (m : (ℓ : Loc nD τ sig) → Buf (Elt Ideal) ℓ) (ρ : Dev nD → PrngReg)

/-- The six arguments on core `c`. -/
abbrev ax (c : Dev nD) := m ((c : Thread nD τ).loc main_arg0)
abbrev ae (c : Dev nD) := m ((c : Thread nD τ).loc main_arg1)
abbrev aw1 (c : Dev nD) := m ((c : Thread nD τ).loc main_arg2)
abbrev ab1 (c : Dev nD) := m ((c : Thread nD τ).loc main_arg3)
abbrev aw2 (c : Dev nD) := m ((c : Thread nD τ).loc main_arg4)
abbrev ab2 (c : Dev nD) := m ((c : Thread nD τ).loc main_arg5)

/-! ### Before the first region -/

theorem at3_src (c : Dev nD) : W3 m ρ c (Proc.devRef .tc main_v3) = Cert.Gcn.srcIdx (F := Ideal) (ae m c) :=
  (ops02_v3 (W2 m ρ c)).trans ((ops01_v3 (W1 m ρ c)).trans (ops0_src (W0 m ρ c)))
theorem at3_dst (c : Dev nD) : W3 m ρ c (Proc.devRef .tc main_v6) = Cert.Gcn.dstIdx (F := Ideal) (ae m c) :=
  (ops02_v6 (W2 m ρ c)).trans ((ops01_v6 (W1 m ρ c)).trans (ops0_dst (W0 m ρ c)))
theorem at2_dinv (c : Dev nD) : W2 m ρ c (Proc.devRef .tc main_v14) = Cert.Gcn.dinv (F := Ideal) (Cert.Gcn.dstIdx (F := Ideal) (ae m c)) := by
  refine (ops01_dinv (W1 m ρ c)).trans ?_
  show select (after hostOps0 (W0 m ρ c) (Proc.devRef .tc main_v12)) (after hostOps0 (W0 m ρ c) (Proc.devRef .tc main_v13)) (broadcastInDim S50000 ![] bcast_S_S50000 (id (after hostOps0 (W0 m ρ c) (Proc.devRef .tc main_cst_2)))) = _
  rw [ops0_pos, ops0_rsqrt, ops0_zero]
  rfl
theorem at3_norm (c : Dev nD) : W3 m ρ c (Proc.devRef .tc main_v29) = Cert.Gcn.norm (F := Ideal) (ae m c) := by
  refine (ops02_norm (W2 m ρ c)).trans ?_
  show Cert.Gcn.normOf (W2 m ρ c (Proc.devRef .tc main_v14)) (after hostOps0_1 (W1 m ρ c) (Proc.devRef .tc main_v3)) (after hostOps0_1 (W1 m ρ c) (Proc.devRef .tc main_v6)) = _
  rw [at2_dinv, ops01_v3, ops01_v6]
  show Cert.Gcn.normOf _ (after hostOps0 (W0 m ρ c) (Proc.devRef .tc main_v3)) (after hostOps0 (W0 m ρ c) (Proc.devRef .tc main_v6)) = _
  rw [ops0_src, ops0_dst]
  rfl
theorem at3_x (c : Dev nD) : W3 m ρ c (Proc.devRef .tc main_arg0) = ax m c :=
  (ops02_arg0 (W2 m ρ c)).trans ((ops01_arg0 (W1 m ρ c)).trans (ops0_arg0 (W0 m ρ c)))
theorem at3_w1 (c : Dev nD) : W3 m ρ c (Proc.devRef .tc main_arg2) = aw1 m c :=
  (ops02_arg2 (W2 m ρ c)).trans ((ops01_arg2 (W1 m ρ c)).trans (ops0_arg2 (W0 m ρ c)))
theorem at3_b1 (c : Dev nD) : W3 m ρ c (Proc.devRef .tc main_arg3) = ab1 m c :=
  (ops02_arg3 (W2 m ρ c)).trans ((ops01_arg3 (W1 m ρ c)).trans (ops0_arg3 (W0 m ρ c)))
theorem at3_w2 (c : Dev nD) : W3 m ρ c (Proc.devRef .tc main_arg4) = aw2 m c :=
  (ops02_arg4 (W2 m ρ c)).trans ((ops01_arg4 (W1 m ρ c)).trans (ops0_arg4 (W0 m ρ c)))
theorem at3_b2 (c : Dev nD) : W3 m ρ c (Proc.devRef .tc main_arg5) = ab2 m c :=
  (ops02_arg5 (W2 m ρ c)).trans ((ops01_arg5 (W1 m ρ c)).trans (ops0_arg5 (W0 m ρ c)))

/-! ### After the first region: the first product -/

theorem at4_mm (c : Dev nD) : W4 m ρ c (Proc.devRef .tc main_v30) = Cert.Gcn.mm1 (F := Ideal) (ax m c) (aw1 m c) :=
  (W4_arr m ρ c 2).trans ((Cert.KernelIdeal.Mm1.final (V3 m ρ) c).trans (congrArg₂ (Cert.Gcn.mm1 (F := Ideal)) (at3_x m ρ c) (at3_w1 m ρ c)))
theorem at4_src (c : Dev nD) : W4 m ρ c (Proc.devRef .tc main_v3) = Cert.Gcn.srcIdx (F := Ideal) (ae m c) :=
  (W4_of_ne m ρ c main_v3 (by decide)).trans (at3_src m ρ c)
theorem at4_dst (c : Dev nD) : W4 m ρ c (Proc.devRef .tc main_v6) = Cert.Gcn.dstIdx (F := Ideal) (ae m c) :=
  (W4_of_ne m ρ c main_v6 (by decide)).trans (at3_dst m ρ c)
theorem at4_norm (c : Dev nD) : W4 m ρ c (Proc.devRef .tc main_v29) = Cert.Gcn.norm (F := Ideal) (ae m c) :=
  (W4_of_ne m ρ c main_v29 (by decide)).trans (at3_norm m ρ c)
theorem at4_b1 (c : Dev nD) : W4 m ρ c (Proc.devRef .tc main_arg3) = ab1 m c :=
  (W4_of_ne m ρ c main_arg3 (by decide)).trans (at3_b1 m ρ c)
theorem at4_w2 (c : Dev nD) : W4 m ρ c (Proc.devRef .tc main_arg4) = aw2 m c :=
  (W4_of_ne m ρ c main_arg4 (by decide)).trans (at3_w2 m ρ c)
theorem at4_b2 (c : Dev nD) : W4 m ρ c (Proc.devRef .tc main_arg5) = ab2 m c :=
  (W4_of_ne m ρ c main_arg5 (by decide)).trans (at3_b2 m ρ c)

/-! ### Before the second region: the first aggregation and the bias row -/

theorem at5_agg (c : Dev nD) : W5 m ρ c (Proc.devRef .tc main_v43)
    = Cert.Gcn.agg128 (F := Ideal) (Cert.Gcn.mm1 (F := Ideal) (ax m c) (aw1 m c)) (Cert.Gcn.srcIdx (F := Ideal) (ae m c)) (Cert.Gcn.dstIdx (F := Ideal) (ae m c)) (Cert.Gcn.norm (F := Ideal) (ae m c)) := by
  refine (ops1_agg (W4 m ρ c)).trans ?_
  rw [at4_mm, at4_src, at4_dst, at4_norm]
theorem at5_row (c : Dev nD) : W5 m ρ c (Proc.devRef .tc main_v44) = broadcastInDim Cert.ReferenceIdeal.S1x128 ![1] Cert.ReferenceIdeal.Gen.bcast_S128_S1x128_1 (ab1 m c) := by
  refine (ops1_row (W4 m ρ c)).trans ?_
  rw [at4_b1]
  exact row128 _
theorem at5_src (c : Dev nD) : W5 m ρ c (Proc.devRef .tc main_v3) = Cert.Gcn.srcIdx (F := Ideal) (ae m c) := (ops1_v3 (W4 m ρ c)).trans (at4_src m ρ c)
theorem at5_dst (c : Dev nD) : W5 m ρ c (Proc.devRef .tc main_v6) = Cert.Gcn.dstIdx (F := Ideal) (ae m c) := (ops1_v6 (W4 m ρ c)).trans (at4_dst m ρ c)
theorem at5_norm (c : Dev nD) : W5 m ρ c (Proc.devRef .tc main_v29) = Cert.Gcn.norm (F := Ideal) (ae m c) := (ops1_v29 (W4 m ρ c)).trans (at4_norm m ρ c)
theorem at5_w2 (c : Dev nD) : W5 m ρ c (Proc.devRef .tc main_arg4) = aw2 m c := (ops1_arg4 (W4 m ρ c)).trans (at4_w2 m ρ c)
theorem at5_b2 (c : Dev nD) : W5 m ρ c (Proc.devRef .tc main_arg5) = ab2 m c := (ops1_arg5 (W4 m ρ c)).trans (at4_b2 m ρ c)

/-! ### After the second region: the first layer -/

theorem at6_layer (c : Dev nD) : W6 m ρ c (Proc.devRef .tc main_v45) = Cert.Gcn.layer1 (F := Ideal) (ax m c) (ae m c) (aw1 m c) (ab1 m c) :=
  (W6_arr m ρ c 2).trans ((Cert.KernelIdeal.Bias1.final (V5 m ρ) c).trans (congrArg₂ (Cert.Gcn.bias1Row (F := Ideal)) (at5_agg m ρ c) (at5_row m ρ c)))
theorem at6_src (c : Dev nD) : W6 m ρ c (Proc.devRef .tc main_v3) = Cert.Gcn.srcIdx (F := Ideal) (ae m c) := (W6_of_ne m ρ c main_v3 (by decide)).trans (at5_src m ρ c)
theorem at6_dst (c : Dev nD) : W6 m ρ c (Proc.devRef .tc main_v6) = Cert.Gcn.dstIdx (F := Ideal) (ae m c) := (W6_of_ne m ρ c main_v6 (by decide)).trans (at5_dst m ρ c)
theorem at6_norm (c : Dev nD) : W6 m ρ c (Proc.devRef .tc main_v29) = Cert.Gcn.norm (F := Ideal) (ae m c) := (W6_of_ne m ρ c main_v29 (by decide)).trans (at5_norm m ρ c)
theorem at6_w2 (c : Dev nD) : W6 m ρ c (Proc.devRef .tc main_arg4) = aw2 m c := (W6_of_ne m ρ c main_arg4 (by decide)).trans (at5_w2 m ρ c)
theorem at6_b2 (c : Dev nD) : W6 m ρ c (Proc.devRef .tc main_arg5) = ab2 m c := (W6_of_ne m ρ c main_arg5 (by decide)).trans (at5_b2 m ρ c)

/-! ### After the third region: the second product -/

theorem at7_mm (c : Dev nD) : W7 m ρ c (Proc.devRef .tc main_v46) = Cert.Gcn.mm2 (F := Ideal) (Cert.Gcn.layer1 (F := Ideal) (ax m c) (ae m c) (aw1 m c) (ab1 m c)) (aw2 m c) :=
  (W7_arr m ρ c 2).trans ((Cert.KernelIdeal.Mm2.final (V6 m ρ) c).trans (congrArg₂ (Cert.Gcn.mm2 (F := Ideal)) (at6_layer m ρ c) (at6_w2 m ρ c)))
theorem at7_src (c : Dev nD) : W7 m ρ c (Proc.devRef .tc main_v3) = Cert.Gcn.srcIdx (F := Ideal) (ae m c) := (W7_of_ne m ρ c main_v3 (by decide)).trans (at6_src m ρ c)
theorem at7_dst (c : Dev nD) : W7 m ρ c (Proc.devRef .tc main_v6) = Cert.Gcn.dstIdx (F := Ideal) (ae m c) := (W7_of_ne m ρ c main_v6 (by decide)).trans (at6_dst m ρ c)
theorem at7_norm (c : Dev nD) : W7 m ρ c (Proc.devRef .tc main_v29) = Cert.Gcn.norm (F := Ideal) (ae m c) := (W7_of_ne m ρ c main_v29 (by decide)).trans (at6_norm m ρ c)
theorem at7_b2 (c : Dev nD) : W7 m ρ c (Proc.devRef .tc main_arg5) = ab2 m c := (W7_of_ne m ρ c main_arg5 (by decide)).trans (at6_b2 m ρ c)

/-! ### Before the last region: the second aggregation and the bias row -/

theorem at8_agg (c : Dev nD) : W8 m ρ c (Proc.devRef .tc main_v59)
    = Cert.Gcn.agg64 (F := Ideal) (Cert.Gcn.mm2 (F := Ideal) (Cert.Gcn.layer1 (F := Ideal) (ax m c) (ae m c) (aw1 m c) (ab1 m c)) (aw2 m c)) (Cert.Gcn.srcIdx (F := Ideal) (ae m c)) (Cert.Gcn.dstIdx (F := Ideal) (ae m c)) (Cert.Gcn.norm (F := Ideal) (ae m c)) := by
  refine (ops3_agg (W7 m ρ c)).trans ?_
  rw [at7_mm, at7_src, at7_dst, at7_norm]
theorem at8_row (c : Dev nD) : W8 m ρ c (Proc.devRef .tc main_v60) = broadcastInDim Cert.ReferenceIdeal.S1x64 ![1] Cert.ReferenceIdeal.Gen.bcast_S64_S1x64_1 (ab2 m c) := by
  refine (ops3_row (W7 m ρ c)).trans ?_
  rw [at7_b2]
  exact row64 _

/-! ### After the last region -/

/-- THE RESULT BUFFER at the end of the run is the network applied to the six arguments. -/
theorem result (c : Dev nD) : W9 m ρ c (Proc.devRef .tc main_v61) = Cert.Gcn.out (F := Ideal) (ax m c) (ae m c) (aw1 m c) (ab1 m c) (aw2 m c) (ab2 m c) :=
  (W9_arr m ρ c 2).trans ((Cert.KernelIdeal.Bias2.final (V8 m ρ) c).trans (congrArg₂ (Cert.Gcn.bias2Row (F := Ideal)) (at8_agg m ρ c) (at8_row m ρ c)))

end Cert.KernelIdeal.Fold

end
-- ==== Proof.lean ====
/-
  The certificate of a two-layer graph convolution whose dense steps run as four pipelined kernels, against its plain
  reference, over the extended reals.

  Both programs compute, from node features x [50000,128], an edge list e [2,800000] and two weight/bias pairs,
      out = A(relu(A(x·W1) + b1)·W2) + b2,
  where A carries every row along each edge and each node's self loop to the destination's row, scaled by the inverse square
  roots of the two end points' in-degrees, and adds what arrives. The reference does all of it with host operations. The
  kernel's program does the index lists, the degrees, the weights and the two aggregations with the SAME host operations and
  only the two matrix products and the two "add the bias (and cut off at zero)" steps as kernels over ten blocks of 5000 rows.
  At the exact instance a change of float format is the identity and a product into a zero accumulator is the plain sum over
  the contracted axis, so each kernel region leaves in its result array exactly the whole-array function the reference applies
  (Proof/Mm1, Proof/Bias1, Proof/Mm2, Proof/Bias2); the host stretches between them are the specification's functions of
  whatever they read (Proof/Fold), and the reference's composed term is the same composition (Proof/RefValue). No algebraic
  law beyond re-indexing a finite sum is needed, so the precondition is never opened.

  The frames of the two kernel programs are the generated ones; the reference's frame is its run with the result dropped; the
  idealization rewrote nothing, so `preserves` has nothing to state.
-/
import proofs.«115861_j11029476016726_1_alg».proof.Defs
import proofs.«115861_j11029476016726_1_alg».proof.Proof.Gen.Kernel
import proofs.«115861_j11029476016726_1_alg».proof.Proof.Gen.Kernel.Skeleton
import proofs.«115861_j11029476016726_1_alg».proof.Proof.Gen.Kernel.Launch
import proofs.«115861_j11029476016726_1_alg».proof.Proof.Gen.Kernel.Points
import proofs.«115861_j11029476016726_1_alg».proof.Proof.Gen.Kernel.Frame
import proofs.«115861_j11029476016726_1_alg».proof.Proof.Gen.KernelIdeal
import proofs.«115861_j11029476016726_1_alg».proof.Proof.Gen.KernelIdeal.Skeleton
import proofs.«115861_j11029476016726_1_alg».proof.Proof.Gen.KernelIdeal.Launch
import proofs.«115861_j11029476016726_1_alg».proof.Proof.Gen.KernelIdeal.Points
import proofs.«115861_j11029476016726_1_alg».proof.Proof.Gen.KernelIdeal.Frame
import proofs.«115861_j11029476016726_1_alg».proof.Proof.Gen.ReferenceIdeal
import proofs.«115861_j11029476016726_1_alg».proof.Proof.Gen.Pre_finite_inputs
import proofs.«115861_j11029476016726_1_alg».proof.Proof.KernelRun
import proofs.«115861_j11029476016726_1_alg».proof.Proof.RefRun
import proofs.«115861_j11029476016726_1_alg».proof.Proof.RefValue
import proofs.«115861_j11029476016726_1_alg».proof.Proof.Fold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the network applied to the arguments: the kernel's by the fold through its nine segments,
    the reference's because its composed term is that composition; the arguments agree by hypothesis. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Fold.result m ρ c), (h c).2⟩)
      (Cert.KernelIdeal.GenRun.run_result (F := Ideal) m ρ)
  · refine (θ_run Cert.ReferenceIdeal.defs _ _).mono (fun r h c => ⟨(h c).1.trans ((Cert.ReferenceIdeal.RefValue.res_eq m' c).trans ?_), (h c).2⟩)
      (Cert.ReferenceIdeal.ValueP.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
